-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S128x1024x512 : Shape := ⟨3, ![128, 1024, 512]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S128x1024x512 : S_.BroadcastsInDim S128x1024x512 (![] : Fin 0 → Fin S128x1024x512.rank)
  reducesTo_S128x1024x512_S_d0_1_2 : S128x1024x512.ReducesTo [0, 1, 2] S_

variable [Facts]

def fn {F : FTy → Type} [FloatOps F] (main_arg0 : FVec F S131072x32 .f32) (main_arg1 : FVec F S128x1024x512 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S128x1024x512 .f32 := Host.absf main_arg1
  let main_cst_0 : FVec F S_ .f32 := constant S_ .f32 0x7F800000#32
  let main_v5 : FVec F S128x1024x512 .f32 := broadcastInDim S128x1024x512 ![] bcast_S_S128x1024x512 main_cst_0
  let main_v6 : IVec S128x1024x512 1 := cmpf .olt main_v4 main_v5
  let main_c_1 : IVec S_ 1 := constantI S_ 1 1#1
  let main_v7 : IVec S_ 1 := (fun x v => Host.reduce IntOp.andi x v reducesTo_S128x1024x512_S_d0_1_2 h_S_) main_v6 main_c_1
  let main_v8 : IVec S_ 1 := andi main_v3 main_v7
  main_v8
-- ==== Kernel.lean ====
abbrev S131072x32 : Shape := ⟨2, ![131072, 32]⟩
abbrev S128x1024x512 : Shape := ⟨3, ![128, 1024, 512]⟩
abbrev S128x1024x32 : Shape := ⟨3, ![128, 1024, 32]⟩
abbrev S128x512x32 : Shape := ⟨3, ![128, 512, 32]⟩
abbrev S1x1024x512 : Shape := ⟨3, ![1, 1024, 512]⟩
abbrev S1x1024x32 : Shape := ⟨3, ![1, 1024, 32]⟩
abbrev S1x512x32 : Shape := ⟨3, ![1, 512, 32]⟩
abbrev S1024x512 : Shape := ⟨2, ![1024, 512]⟩
abbrev S1024x32 : Shape := ⟨2, ![1024, 32]⟩
abbrev S512x32 : Shape := ⟨2, ![512, 32]⟩
abbrev S65536x32 : Shape := ⟨2, ![65536, 32]⟩

abbrev nBuf : Space → Nat
  | .hbm => 5
  | .vmem => 6
  | .smem => 0
  | _ => 0

abbrev bufTy : (tb : Table) → Fin (tcTables nBuf tb) → BufTy
  | .hbm, ⟨0, _⟩ => ⟨S131072x32, .f32⟩
  | .hbm, ⟨1, _⟩ => ⟨S128x1024x512, .f32⟩
  | .hbm, ⟨2, _⟩ => ⟨S128x1024x32, .f32⟩
  | .hbm, ⟨3, _⟩ => ⟨S128x512x32, .f32⟩
  | .hbm, ⟨4, _⟩ => ⟨S65536x32, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x32, .f32⟩
  | .local _ .vmem, ⟨3, _⟩ => ⟨S1x1024x32, .f32⟩
  | .local _ .vmem, ⟨4, _⟩ => ⟨S1x512x32, .f32⟩
  | .local _ .vmem, ⟨5, _⟩ => ⟨S1x512x32, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S131072x32_S128x1024x32 : S131072x32.ShapeCasts S128x1024x32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  shapeCasts_S128x512x32_S65536x32 : S128x512x32.ShapeCasts S65536x32
  dot_S1024x512_S1024x32_S512x32_0_0_1_1_n_n_wf : DotDims.WF S1024x512 S1024x32 S512x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S128x1024x512.size a
  hwx0_0 : ∀ i : grid0.Coords, EltTy.bits .f32 = 32 ∨ (Rect.block (s := S128x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x32.size a ≤ S128x1024x32.size a
  hwx0_1 : ∀ i : grid0.Coords, EltTy.bits .f32 = 32 ∨ (Rect.block (s := S128x1024x32) S1x1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x32.size a ≤ S128x512x32.size a
  hwx0_2 : ∀ i : grid0.Coords, EltTy.bits .f32 = 32 ∨ (Rect.block (s := S128x512x32) S1x512x32.size (cc0_transform_2 i) (hinb0_2 i)).WholeWords (EltTy.packing .f32)

variable [Facts₀]

def dot_S1024x512_S1024x32_S512x32_0_0_1_1_n_n : DotDims S1024x512 S1024x32 S512x32 where
  lhsContracting := [0]
  rhsContracting := [0]
  lhsNonContracting := [1]
  rhsNonContracting := [1]
  lhsBatch := []
  rhsBatch := []
  wf := dot_S1024x512_S1024x32_S512x32_0_0_1_1_n_n_wf

abbrev win0_0 : Pipeline.Window sig grid0 :=
  Pipeline.Window.ofSpec (Memref.whole main_arg1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x32 : Shape := ⟨2, ![131072, 32]⟩
abbrev S128x1024x512 : Shape := ⟨3, ![128, 1024, 512]⟩
abbrev S128x1024x32 : Shape := ⟨3, ![128, 1024, 32]⟩
abbrev S128x512x32 : Shape := ⟨3, ![128, 512, 32]⟩
abbrev S65536x32 : Shape := ⟨2, ![65536, 32]⟩

abbrev nBuf : Space → Nat
  | .hbm => 5
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S128x1024x512, .f32⟩
  | .hbm, ⟨2, _⟩ => ⟨S128x1024x32, .f32⟩
  | .hbm, ⟨3, _⟩ => ⟨S128x512x32, .f32⟩
  | .hbm, ⟨4, _⟩ => ⟨S65536x32, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S131072x32_S128x1024x32 : S131072x32.ShapeCasts S128x1024x32
  shapeCasts_S128x512x32_S65536x32 : S128x512x32.ShapeCasts S65536x32
  dot_S128x1024x512_S128x1024x32_S128x512x32_1_1_2_2_0_0_wf : DotDims.WF S128x1024x512 S128x1024x32 S128x512x32 [1] [1] [2] [2] [0] [0]

variable [Facts₀]

def dot_S128x1024x512_S128x1024x32_S128x512x32_1_1_2_2_0_0 : DotDims S128x1024x512 S128x1024x32 S128x512x32 where
  lhsContracting := [1]
  rhsContracting := [1]
  lhsNonContracting := [2]
  rhsNonContracting := [2]
  lhsBatch := [0]
  rhsBatch := [0]
  wf := dot_S128x1024x512_S128x1024x32_S128x512x32_1_1_2_2_0_0_wf

class Facts : Prop extends Facts₀ where

variable [Facts]
-- ==== Proof.Pooled.lean ====
/-
  The mathematics both programs compute, stated once, over no program.

  `U` is a stack of 128 matrices of 1024 rows and 512 columns, `x` a stack of 128 matrices of 1024 rows and 32
  columns. Slab by slab the result is the transpose of `U`'s slab times `x`'s slab: for slab `b`, row `p` and
  column `q`,

      pooled[b, p, q] = Σ_{k < 1024} U[b, k, p] · x[b, k, q].

  The sum runs over the 1024 rows the two slabs share, so slab `b` of the result depends on slab `b` of `U` and
  of `x` and on nothing else. On the extended reals a finite sum does not depend on the order or grouping of its
  terms, so nothing here asks the entries to be finite.
-/
import Idealize.ShloMosaic.PureOps.Ideal
import Idealize.ShloMosaic.Lib.ValueIdx

noncomputable section

namespace BatchPool

open Idealize.ShloMosaic Idealize.ShloMosaic.ValueIdx

/-- One entry of the result: slab `b`, row `p`, column `q`. -/
def pooledAt (u : FVec Ideal ⟨3, ![128, 1024, 512]⟩ .f32) (xs : FVec Ideal ⟨3, ![128, 1024, 32]⟩ .f32)
    (b : Fin 128) (p : Fin 512) (q : Fin 32) : EReal :=
  ∑ k : Fin 1024, u (ix3 b k p) * xs (ix3 b k q)

/-- The whole result, as an array [128, 512, 32]. -/
def pooled (u : FVec Ideal ⟨3, ![128, 1024, 512]⟩ .f32) (xs : FVec Ideal ⟨3, ![128, 1024, 32]⟩ .f32) :
    FVec Ideal ⟨3, ![128, 512, 32]⟩ .f32 :=
  fun i => pooledAt u xs ⟨(i 0).val, (i 0).isLt⟩ ⟨(i 1).val, (i 1).isLt⟩ ⟨(i 2).val, (i 2).isLt⟩

/-- At an index given by its three coordinates the result is that entry. -/
theorem pooled_ix3 (u : FVec Ideal ⟨3, ![128, 1024, 512]⟩ .f32) (xs : FVec Ideal ⟨3, ![128, 1024, 32]⟩ .f32)
    (b : Fin 128) (p : Fin 512) (q : Fin 32) : pooled u xs (ix3 b p q) = pooledAt u xs b p q := rfl

end BatchPool

end
-- ==== Proof.RefSide.lean ====
/-
  The reference, read at an index.

  The reference regroups `x` into 128 slabs of 1024 rows, contracts the stack `U` with it slab by slab over the
  row axis the slabs share, and flattens the [128, 512, 32] result to [65536, 32]. On the extended reals the
  contraction's entry (b, p, q) is the plain sum Σ_k U[b, k, p] · x'[b, k, q], which is the result of
  Pooled.lean; the two regroupings are carried along unopened.
-/
import proofs.«139193_j25598005085127_1_alg».proof.Proof.Gen.ReferenceIdeal.Read
import proofs.«139193_j25598005085127_1_alg».proof.Proof.Pooled

noncomputable section

namespace Cert.ReferenceIdeal.RefValue

open Cert.ReferenceIdeal Cert.ReferenceIdeal.Gen Cert.ReferenceIdeal.Read Idealize.ShloMosaic Idealize.ShloMosaic.ValueIdx BatchPool

/-- The contraction reads `U` at (slab, shared row, result row) … -/
theorem lidx_eq (i : S128x512x32.Idx) (k : Fin 1024) :
    lidx_main_v1 i k = ix3 ⟨(i 0).val, (i 0).isLt⟩ k ⟨(i 1).val, (i 1).isLt⟩ :=
  funext fun a => by match a with | ⟨0, _⟩ => rfl | ⟨1, _⟩ => rfl | ⟨2, _⟩ => rfl
/-- … and the regrouped `x` at (slab, shared row, result column). -/
theorem ridx_eq (i : S128x512x32.Idx) (k : Fin 1024) :
    ridx_main_v1 i k = ix3 ⟨(i 0).val, (i 0).isLt⟩ k ⟨(i 2).val, (i 2).isLt⟩ :=
  funext fun a => by match a with | ⟨0, _⟩ => rfl | ⟨1, _⟩ => rfl | ⟨2, _⟩ => rfl

/-- The slab-by-slab contraction of `U` with the regrouped `x` is the result of Pooled.lean, entry by entry. -/
theorem contraction_eq (x0 : (⟨S131072x32, .f32⟩ : BufTy).Contents (Elt Ideal)) (x1 : (⟨S128x1024x512, .f32⟩ : BufTy).Contents (Elt Ideal)) :
    val_main_v1 (F := Ideal) x0 x1 = pooled x1 (val_main_v0 (F := Ideal) x0) := by
  funext i
  rw [val_main_v1_apply]
  exact Finset.sum_congr rfl fun k _ =>
    congrArg₂ (· * ·) (congrArg x1 (lidx_eq i k)) (congrArg (val_main_v0 (F := Ideal) x0) (ridx_eq i k))

/-- The reference's result: the flattening of the result of Pooled.lean on `U` and the regrouped `x`. -/
theorem result_eq (x0 : (⟨S131072x32, .f32⟩ : BufTy).Contents (Elt Ideal)) (x1 : (⟨S128x1024x512, .f32⟩ : BufTy).Contents (Elt Ideal)) :
    val_main_v2 (F := Ideal) x0 x1
      = shapeCast S65536x32 (pooled x1 (shapeCast S128x1024x32 x0 shapeCasts_S131072x32_S128x1024x32)) shapeCasts_S128x512x32_S65536x32 := by
  unfold val_main_v2
  rw [contraction_eq]
  rfl

end Cert.ReferenceIdeal.RefValue

end
-- ==== Proof.Payload.lean ====
/-
  What the kernel body stores, read at an index.

  At a grid point the body loads a [1, 1024, 512] block `a` and a [1, 1024, 32] block `b`, drops their leading
  unit axis, multiplies the transpose of the first by the second into a zero accumulator (the narrowing of both
  operands to a shorter float format is the identity on the extended reals), and stores the [512, 32] product
  with a leading unit axis put back. So entry (0, p, q) of what it stores is Σ_k a[0, k, p] · b[0, k, q].
-/
import proofs.«139193_j25598005085127_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The matrix product's dimension record: both operands are contracted on their axis 0. -/
abbrev D := dot_S1024x512_S1024x32_S512x32_0_0_1_1_n_n

/-- The left operand is read at (contraction position, output row). -/
theorem lhs_0 (j : S512x32.Idx) (r : dot_S1024x512_S1024x32_S512x32_0_0_1_1_n_n.contr.Idx) :
    (dot_S1024x512_S1024x32_S512x32_0_0_1_1_n_n.lhsIdx j r 0).val = (r ⟨0, by decide⟩).val :=
  dot_S1024x512_S1024x32_S512x32_0_0_1_1_n_n.lhsIdx_val_of_single rfl j r
theorem lhs_1 (j : S512x32.Idx) (r : dot_S1024x512_S1024x32_S512x32_0_0_1_1_n_n.contr.Idx) :
    (dot_S1024x512_S1024x32_S512x32_0_0_1_1_n_n.lhsIdx j r 1).val = (j 0).val := by
  unfold DotDims.lhsIdx
  rw [dif_neg (show ¬(1 : Fin S1024x512.rank) ∈ dot_S1024x512_S1024x32_S512x32_0_0_1_1_n_n.lhsBatch by decide), dif_pos (show (1 : Fin S1024x512.rank) ∈ dot_S1024x512_S1024x32_S512x32_0_0_1_1_n_n.lhsNonContracting by decide)]
  rfl
/-- The right operand is read at (contraction position, output column). -/
theorem rhs_0 (j : S512x32.Idx) (r : dot_S1024x512_S1024x32_S512x32_0_0_1_1_n_n.contr.Idx) :
    (dot_S1024x512_S1024x32_S512x32_0_0_1_1_n_n.rhsIdx j r 0).val = (r ⟨0, by decide⟩).val :=
  dot_S1024x512_S1024x32_S512x32_0_0_1_1_n_n.rhsIdx_val_of_single rfl j r
theorem rhs_1 (j : S512x32.Idx) (r : dot_S1024x512_S1024x32_S512x32_0_0_1_1_n_n.contr.Idx) :
    (dot_S1024x512_S1024x32_S512x32_0_0_1_1_n_n.rhsIdx j r 1).val = (j 1).val := by
  unfold DotDims.rhsIdx
  rw [dif_neg (show ¬(1 : Fin S1024x32.rank) ∈ dot_S1024x512_S1024x32_S512x32_0_0_1_1_n_n.rhsBatch by decide), dif_pos (show (1 : Fin S1024x32.rank) ∈ dot_S1024x512_S1024x32_S512x32_0_0_1_1_n_n.rhsNonContracting by decide)]
  rfl

/-- The product of the transposed first matrix with the second, into zero, at (p, q): the sum over the shared
    row index. -/
theorem product_apply (a : FVec Ideal S1024x512 .bf16) (b : FVec Ideal S1024x32 .bf16) (p : Fin 512) (q : Fin 32) :
    matmul dot_S1024x512_S1024x32_S512x32_0_0_1_1_n_n none a b (constant S512x32 .f32 0x00000000#32) (ix2 p q)
      = ∑ k : Fin 1024, a (ix2 k p) * b (ix2 k q) := by
  simp only [matmul]
  rw [Ideal.matmul_constant_zero_apply, ← Equiv.sum_comp (contrEquiv1 dot_S1024x512_S1024x32_S512x32_0_0_1_1_n_n 1024 rfl rfl).symm]
  refine Finset.sum_congr rfl fun k _ => ?_
  have hk := contrEquiv1_symm_val dot_S1024x512_S1024x32_S512x32_0_0_1_1_n_n 1024 rfl rfl k
  have el : dot_S1024x512_S1024x32_S512x32_0_0_1_1_n_n.lhsIdx (ix2 p q) ((contrEquiv1 dot_S1024x512_S1024x32_S512x32_0_0_1_1_n_n 1024 rfl rfl).symm k) = ix2 k p := funext fun e => Fin.ext (by
    match e with
    | ⟨0, _⟩ => exact (lhs_0 _ _).trans hk
    | ⟨1, _⟩ => exact lhs_1 _ _)
  have er : dot_S1024x512_S1024x32_S512x32_0_0_1_1_n_n.rhsIdx (ix2 p q) ((contrEquiv1 dot_S1024x512_S1024x32_S512x32_0_0_1_1_n_n 1024 rfl rfl).symm k) = ix2 k q := funext fun e => Fin.ext (by
    match e with
    | ⟨0, _⟩ => exact (rhs_0 _ _).trans hk
    | ⟨1, _⟩ => exact rhs_1 _ _)
  rw [el, er]

/-- A block with its leading unit axis dropped, read at (k, p), is the block at (0, k, p). -/
theorem dropUnit_lhs (a : Vec Ideal S1x1024x512 .f32) (k : Fin 1024) (p : Fin 512) :
    shapeCast S1024x512 a shapeCasts_S1x1024x512_S1024x512 (ix2 k p) = a (ix3 (0 : Fin 1) k p) := by
  refine (shapeCast_dropUnit_apply ![1024, 512] a shapeCasts_S1x1024x512_S1024x512 (ix2 k p)).trans ?_
  exact congrArg a (funext fun e => by match e with | ⟨0, _⟩ => rfl | ⟨1, _⟩ => rfl | ⟨2, _⟩ => rfl)
theorem dropUnit_rhs (b : Vec Ideal S1x1024x32 .f32) (k : Fin 1024) (q : Fin 32) :
    shapeCast S1024x32 b shapeCasts_S1x1024x32_S1024x32 (ix2 k q) = b (ix3 (0 : Fin 1) k q) := by
  refine (shapeCast_dropUnit_apply ![1024, 32] b shapeCasts_S1x1024x32_S1024x32 (ix2 k q)).trans ?_
  exact congrArg b (funext fun e => by match e with | ⟨0, _⟩ => rfl | ⟨1, _⟩ => rfl | ⟨2, _⟩ => rfl)

/-- What the body stores, at (0, p, q), from the two blocks it loads: on the extended reals the narrowing of
    the operands changes nothing, so it is the sum over the shared row index of the blocks' products. -/
theorem stored_apply (a : Vec Ideal S1x1024x512 .f32) (b : Vec Ideal S1x1024x32 .f32) (p : Fin 512) (q : Fin 32) :
    k0_pay1 (F := Ideal) a b (ix3 (0 : Fin 1) p q) = ∑ k : Fin 1024, a (ix3 (0 : Fin 1) k p) * b (ix3 (0 : Fin 1) k q) := by
  unfold k0_pay1
  refine (shapeCast_addUnit_apply ![512, 32] _ shapeCasts_S512x32_S1x512x32 (ix3 (0 : Fin 1) p q)).trans ?_
  have ej : (fun e : Fin 2 => (ix3 (0 : Fin 1) p q : S1x512x32.Idx) e.succ) = ix2 p q :=
    funext fun e => by match e with | ⟨0, _⟩ => rfl | ⟨1, _⟩ => rfl
  rw [ej]
  refine (product_apply _ _ p q).trans ?_
  refine Finset.sum_congr rfl fun k _ => ?_
  exact congrArg₂ (· * ·) (dropUnit_lhs a k p) (dropUnit_rhs b k q)

end Cert.KernelIdeal.Payload

end
-- ==== Proof.Blocks.lean ====
/-
  From the blocks the grid points write back to the whole array the region leaves.

  The grid has 128 points; point `t` works on slab `t`: each of the three windows has, at point `t`, block index
  (t, 0, 0), so the block's entry (0, k, p) is the array's entry (t, k, p). Point `t` therefore writes back
  slab `t` of the result of Pooled.lean, computed from slab `t` of the two operand arrays as the region finds
  them; the 128 slabs tile the [128, 512, 32] array, so after the last write-back the array is that result.
-/
import proofs.«139193_j25598005085127_1_alg».proof.Proof.Gen.KernelIdeal.Frame
import proofs.«139193_j25598005085127_1_alg».proof.Proof.Pooled
import proofs.«139193_j25598005085127_1_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx BatchPool
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-- Every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The slab point `t` works on. -/
def slab (t : Fin cfg0.N) : Fin 128 := t.cast N_0

theorem slab_val (t : Fin cfg0.N) : (slab t).val = t.val := rfl

/-- The two operand arrays as the region finds them, at their literal types. -/
abbrev lhsArr (c : Dev nD) : FVec Ideal S128x1024x512 .f32 := V m c main_arg1
abbrev rhsArr (c : Dev nD) : FVec Ideal S128x1024x32 .f32 := V m c main_v0

/-- The first window's block at point `t` is slab `t` of `U`. -/
theorem lhs_block (c : Dev nD) (t : Fin cfg0.N) (k : Fin 1024) (p : Fin 512) :
    (iblk m c 0 t : Vec Ideal S1x1024x512 .f32) (ix3 (0 : Fin 1) k p)
      = lhsArr m c (ix3 (slab t) k p) := by
  obtain ⟨h0, h1, h2, -⟩ := idx_facts t
  unfold iblk
  rw [View.read_apply]
  show V m c main_arg1 _ = V m c main_arg1 _
  congr 1
  funext a
  apply Fin.ext
  match a with
  | ⟨0, _⟩ => show win0_0.index t (0 : Fin 3) * 1 + 1 * 0 = t.val; omega
  | ⟨1, _⟩ => show win0_0.index t (1 : Fin 3) * 1024 + 1 * k.val = k.val; omega
  | ⟨2, _⟩ => show win0_0.index t (2 : Fin 3) * 512 + 1 * p.val = p.val; omega

/-- The second window's block at point `t` is slab `t` of the regrouped `x`. -/
theorem rhs_block (c : Dev nD) (t : Fin cfg0.N) (k : Fin 1024) (q : Fin 32) :
    (iblk m c 1 t : Vec Ideal S1x1024x32 .f32) (ix3 (0 : Fin 1) k q)
      = rhsArr m c (ix3 (slab t) k q) := by
  obtain ⟨-, -, -, h0, h1, h2, -⟩ := idx_facts t
  unfold iblk
  rw [View.read_apply]
  show V m c main_v0 _ = V m c main_v0 _
  congr 1
  funext a
  apply Fin.ext
  match a with
  | ⟨0, _⟩ => show win0_1.index t (0 : Fin 3) * 1 + 1 * 0 = t.val; omega
  | ⟨1, _⟩ => show win0_1.index t (1 : Fin 3) * 1024 + 1 * k.val = k.val; omega
  | ⟨2, _⟩ => show win0_1.index t (2 : Fin 3) * 32 + 1 * q.val = q.val; omega

/-- Entry (0, p, q) of the output's block at point `t` sits at (t, p, q) of the array. -/
theorem out_emb (t : Fin cfg0.N) (p : Fin 512) (q : Fin 32) :
    (((cfg0.win 2).blk t).view.emb (ix3 (0 : Fin 1) p q) : S128x512x32.Idx) = ix3 (slab t) p q := by
  obtain ⟨-, -, -, -, -, -, h0, h1, h2⟩ := idx_facts t
  funext a
  apply Fin.ext
  match a with
  | ⟨0, _⟩ => show win0_2.index t (0 : Fin 3) * 1 + 1 * 0 = t.val; omega
  | ⟨1, _⟩ => show win0_2.index t (1 : Fin 3) * 512 + 1 * p.val = p.val; omega
  | ⟨2, _⟩ => show win0_2.index t (2 : Fin 3) * 32 + 1 * q.val = q.val; omega

/-- The result of Pooled.lean on the operand arrays as the region finds them. -/
abbrev target (c : Dev nD) : FVec Ideal S128x512x32 .f32 :=
  pooled (lhsArr m c) (rhsArr m c)

/-- WHAT POINT `t` WRITES BACK is block `t` — slab `t` — of that result. -/
theorem flushed_eq (c : Dev nD) (t : Fin cfg0.N) :
    (dats m 0 c).flushed 2 t = ((cfg0.win 2).blk t).view.read (Elt Ideal) (target m c) := by
  show (cfg0.win 2).cut (grid0.coords t) ((dats m 0 c).after 2 t) = _
  rw [after0_2]
  unfold out0_2
  rw [View.canon_unit_zero hz]
  simp only [View.ld_unit_zero (S := S1x1024x512) hz, View.ld_unit_zero (S := S1x1024x32) hz]
  funext j
  obtain ⟨a, p, q, rfl⟩ : ∃ (a : Fin 1) (p : Fin 512) (q : Fin 32), j = ix3 a p q := ⟨j 0, j 1, j 2, eq_ix3 j⟩
  obtain rfl : a = 0 := Subsingleton.elim _ _
  show k0_pay1 (F := Ideal) (iblk m c 0 t) (iblk m c 1 t) (ix3 (0 : Fin 1) p q)
    = target m c (((cfg0.win 2).blk t).view.emb (ix3 (0 : Fin 1) p q))
  rw [out_emb t p q]
  refine ((Payload.stored_apply _ _ p q).trans ?_).trans (pooled_ix3 (lhsArr m c) (rhsArr m c) (slab t) p q).symm
  exact Finset.sum_congr rfl fun k _ => congrArg₂ (· * ·) (lhs_block m c t k p) (rhs_block m c t k q)

/-- An index of the array is in point `t`'s block iff each coordinate is in the block's range on its axis. -/
theorem mem_blk (t : Fin cfg0.N) (i : S128x512x32.Idx) :
    i ∈ ((cfg0.win 2).blk t).view.set ↔ ∀ a : Fin 3, win0_2.index t a * S1x512x32.size a ≤ (i a).val ∧ (i a).val < win0_2.index t a * S1x512x32.size a + S1x512x32.size a := by
  show i ∈ ((View.whole main_v1).slice (win0_2.rect t)).set ↔ _
  rw [View.set_slice_whole, Rect.mem_set_unit]
  exact Iff.rfl

/-- Every index (b, p, q) of the array is in the block of the point that works on slab `b`. -/
theorem cover (i : S128x512x32.Idx) :
    ∃ t : Fin cfg0.N, (cfg0.win 2).flush t = true ∧ i ∈ ((cfg0.win 2).blk t).view.set := by
  have hi0 : (i 0).val < 128 := (i 0).isLt
  have hi1 : (i 1).val < 512 := (i 1).isLt
  have hi2 : (i 2).val < 32 := (i 2).isLt
  refine ⟨(⟨(i 0).val, hi0⟩ : Fin 128).cast N_0.symm, flush0_2 _, ?_⟩
  rw [mem_blk]
  obtain ⟨-, -, -, -, -, -, h0, h1, h2⟩ := idx_facts ((⟨(i 0).val, hi0⟩ : Fin 128).cast N_0.symm)
  have hv : ((⟨(i 0).val, hi0⟩ : Fin 128).cast N_0.symm : Fin cfg0.N).val = (i 0).val := rfl
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 512 ≤ (i 1).val ∧ (i 1).val < win0_2.index _ (1 : Fin 3) * 512 + 512; omega
  | ⟨2, _⟩ => show win0_2.index _ (2 : Fin 3) * 32 ≤ (i 2).val ∧ (i 2).val < win0_2.index _ (2 : Fin 3) * 32 + 32; omega

/-- THE ARRAY the region leaves: the result of Pooled.lean on the operand arrays as the region finds them. -/
theorem final (c : Dev nD) : (dats m 0 c).arrAt 2 cfg0.N = target m c :=
  (dats m 0 c).arrAt_eq_of_cover 2 (target m c) (fun t _ => flushed_eq m c t) cover

end Cert.KernelIdeal.Blocks

end
-- ==== Proof.KernelRun.lean ====
/-
  The kernel program's run, read as a value.

  Before the region the program regroups `x` into 128 slabs of 1024 rows; the region leaves, in its output
  array, the result of Pooled.lean on `U` and the regrouped `x` (Blocks.lean); after the region the program
  flattens that [128, 512, 32] array to [65536, 32]. The two regroupings are carried along unopened: the
  reference applies the same two.
-/
import proofs.«139193_j25598005085127_1_alg».proof.Proof.Blocks
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo BatchPool
open Idealize.ShloMosaic.Pipeline (Dat)

variable (m : (ℓ : Loc nD τ sig) → Buf (Elt Ideal) ℓ) (ρ : Dev nD → PrngReg)

/-- The second operand array as the region finds it: `x` regrouped. -/
theorem entry_v0 (c : Dev nD) :
    (V m c main_v0 : S128x1024x32.Idx → EReal)
      = shapeCast S128x1024x32 (m ((c : Thread nD τ).loc main_arg0)) shapeCasts_S131072x32_S128x1024x32 := by
  show StableHlo.after hostOps0 (fun b => m (c, b)) (Proc.devRef .tc main_v0) = _
  after_results
  rfl

/-- The program's result: the flattening of the array the region leaves. -/
theorem tail_eq (c : Dev nD) :
    Pipeline.afterTail₀ cfgs (dats m) 0 (V0 m) [hostOps1] c main_v2
      = shapeCast S65536x32 ((dats m 0 c).arrAt 2 cfg0.N) shapeCasts_S128x512x32_S65536x32 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 2 cfg0.N := Pipeline.withArrays_arr spec0 launch0.win.arr_inj c _ _ 2
  rw [e]
  rfl

/-- THE RUN of the kernel program on the extended reals: every weakly fair execution ends with the result array
    at the flattening of the result of Pooled.lean on `U` and the regrouped `x`, the arguments unchanged. -/
theorem run : θ_run defs (onTc (τ := τ) (main (F := Ideal))) ⟨m, fun _ => 0, ρ⟩ fun r => ∀ c : Dev nD,
      r.2.mem ((c : Thread nD τ).loc main_v2)
        = shapeCast S65536x32 (pooled (m ((c : Thread nD τ).loc main_arg1))
            (shapeCast S128x1024x32 (m ((c : Thread nD τ).loc main_arg0)) shapeCasts_S131072x32_S128x1024x32)) shapeCasts_S128x512x32_S65536x32
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans
          ((tail_eq m c).trans (by rw [Blocks.final, ← entry_v0 m c, ← V_main_arg1 m c])),
        ((h c).2 main_arg0 (Pipeline.mem_restRefs_of main_arg0 (by decide) (by decide))).trans (W_main_arg0 m (dats m) c),
        ((h c).1 0).trans (((dats m 0 c).arrAt_in 0 rfl _).trans ((A_eq m c 0).trans (V_main_arg1 m c)))⟩)
    (run_main m ρ)

end Cert.KernelIdeal.Run

end
-- ==== Proof.lean ====
/-
  The kernel and its reference compute, on the extended reals, the same array.

  `U` is a stack of 128 matrices [1024, 512], `x` holds 128·1024 rows of 32 entries. Both programs regroup `x`
  into 128 slabs of 1024 rows, form slab by slab the product of the transpose of `U`'s slab with `x`'s slab,

      pooled[b, p, q] = Σ_{k < 1024} U[b, k, p] · x[b, k, q]        (Proof/Pooled.lean),

  and flatten the [128, 512, 32] result to [65536, 32]. The reference does the middle step as one batched
  contraction (Proof/RefSide.lean). The kernel does it over a grid of 128 points, point `t` loading slab `t` of both
  operands, multiplying into a zero accumulator and storing slab `t` of the result; narrowing the operands to a
  shorter float format before the product is the identity on the extended reals (Proof/Payload.lean), the 128
  slabs tile the output (Proof/Blocks.lean), and the two regroupings are the same on both sides
  (Proof/KernelRun.lean). The two sums have the same terms in the same order, so no law of the extended reals that
  needs finite entries is used, and the precondition is never opened.

  The three programs terminate without fault and leave their arguments unchanged: for the two kernel programs
  that is the generated frame; for the reference it is its run with the result dropped. The idealization
  rewrote nothing, so there is nothing to preserve.
-/
import proofs.«139193_j25598005085127_1_alg».proof.Defs
import proofs.«139193_j25598005085127_1_alg».proof.Proof.Gen.Kernel
import proofs.«139193_j25598005085127_1_alg».proof.Proof.Gen.Kernel.Frame
import proofs.«139193_j25598005085127_1_alg».proof.Proof.Gen.KernelIdeal
import proofs.«139193_j25598005085127_1_alg».proof.Proof.Gen.KernelIdeal.Frame
import proofs.«139193_j25598005085127_1_alg».proof.Proof.Gen.ReferenceIdeal
import proofs.«139193_j25598005085127_1_alg».proof.Proof.Gen.ReferenceIdeal.Run
import proofs.«139193_j25598005085127_1_alg».proof.Proof.Gen.ReferenceIdeal.Read
import proofs.«139193_j25598005085127_1_alg».proof.Proof.Gen.Pre_finite_inputs
import proofs.«139193_j25598005085127_1_alg».proof.Proof.RefSide
import proofs.«139193_j25598005085127_1_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `U` both programs end with the flattened slab-by-slab products. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
